-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : IVec S2x1600000 32) (main_arg2 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S100000x128 : Shape := ⟨2, ![100000, 128]⟩
abbrev S2x1600000 : Shape := ⟨2, ![2, 1600000]⟩
abbrev S128x128 : Shape := ⟨2, ![128, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩

abbrev nBuf : Space → Nat
  | .hbm => 55
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S100000, .i32⟩
  | .hbm, ⟨4, _⟩ => ⟨S1x1600000, .i32⟩
  | .hbm, ⟨5, _⟩ => ⟨S1600000, .i32⟩
  | .hbm, ⟨6, _⟩ => ⟨S1700000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S_, .f32⟩
  | .hbm, ⟨11, _⟩ => ⟨S1700000, .f32⟩
  | .hbm, ⟨12, _⟩ => ⟨S_, .f32⟩
  | .hbm, ⟨13, _⟩ => ⟨S100000, .f32⟩
  | .hbm, ⟨14, _⟩ => ⟨S1700000x1, .i32⟩
  | .hbm, ⟨15, _⟩ => ⟨S100000, .f32⟩
  | .hbm, ⟨16, _⟩ => ⟨S100000, .f32⟩
  | .hbm, ⟨17, _⟩ => ⟨S_, .i32⟩
  | .hbm, ⟨18, _⟩ => ⟨S1700000, .i32⟩
  | .hbm, ⟨19, _⟩ => ⟨S1700000, .i1⟩
  | .hbm, ⟨20, _⟩ => ⟨S_, .i32⟩
  | .hbm, ⟨21, _⟩ => ⟨S1700000, .i32⟩
  | .hbm, ⟨22, _⟩ => ⟨S1700000, .i32⟩
  | .hbm, ⟨23, _⟩ => ⟨S1700000, .i32⟩
  | .hbm, ⟨24, _⟩ => ⟨S1700000x1, .i32⟩
  | .hbm, ⟨25, _⟩ => ⟨S1700000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S1700000, .f32⟩
  | .hbm, ⟨36, _⟩ => ⟨S128x128, .f32⟩
  | .hbm, ⟨37, _⟩ => ⟨S100000x128, .f32⟩
  | .hbm, ⟨38, _⟩ => ⟨S1700000x1, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000x128, .f32⟩
  | .hbm, ⟨48, _⟩ => ⟨S1700000x128, .f32⟩
  | .hbm, ⟨49, _⟩ => ⟨S1700000x128, .f32⟩
  | .hbm, ⟨50, _⟩ => ⟨S_, .f32⟩
  | .hbm, ⟨51, _⟩ => ⟨S100000x128, .f32⟩
  | .hbm, ⟨52, _⟩ => ⟨S1700000x1, .i32⟩
  | .hbm, ⟨53, _⟩ => ⟨S100000x128, .f32⟩
  | .hbm, ⟨54, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_4 : Ref sig .tc := ⟨.hbm, 39, rfl⟩
abbrev main_v30 : Ref sig .tc := ⟨.hbm, 40, rfl⟩
abbrev main_v31 : Ref sig .tc := ⟨.hbm, 41, rfl⟩
abbrev main_c_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩

abbrev nBuf : Space → Nat
  | .hbm => 57
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S100000, .i32⟩
  | .hbm, ⟨4, _⟩ => ⟨S1x1600000, .i32⟩
  | .hbm, ⟨5, _⟩ => ⟨S1600000, .i32⟩
  | .hbm, ⟨6, _⟩ => ⟨S1700000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S_, .f32⟩
  | .hbm, ⟨11, _⟩ => ⟨S1700000, .f32⟩
  | .hbm, ⟨12, _⟩ => ⟨S_, .f32⟩
  | .hbm, ⟨13, _⟩ => ⟨S100000, .f32⟩
  | .hbm, ⟨14, _⟩ => ⟨S1700000x1, .i32⟩
  | .hbm, ⟨15, _⟩ => ⟨S100000, .f32⟩
  | .hbm, ⟨16, _⟩ => ⟨S100000, .f32⟩
  | .hbm, ⟨17, _⟩ => ⟨S_, .i32⟩
  | .hbm, ⟨18, _⟩ => ⟨S1700000, .i32⟩
  | .hbm, ⟨19, _⟩ => ⟨S1700000, .i1⟩
  | .hbm, ⟨20, _⟩ => ⟨S_, .i32⟩
  | .hbm, ⟨21, _⟩ => ⟨S1700000, .i32⟩
  | .hbm, ⟨22, _⟩ => ⟨S1700000, .i32⟩
  | .hbm, ⟨23, _⟩ => ⟨S1700000, .i32⟩
  | .hbm, ⟨24, _⟩ => ⟨S1700000x1, .i32⟩
  | .hbm, ⟨25, _⟩ => ⟨S1700000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S1700000, .f32⟩
  | .hbm, ⟨36, _⟩ => ⟨S128x128, .f32⟩
  | .hbm, ⟨37, _⟩ => ⟨S100000x128, .f32⟩
  | .hbm, ⟨38, _⟩ => ⟨S1700000x1, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000x128, .f32⟩
  | .hbm, ⟨48, _⟩ => ⟨S1700000x128, .f32⟩
  | .hbm, ⟨49, _⟩ => ⟨S1700000x128, .f32⟩
  | .hbm, ⟨50, _⟩ => ⟨S_, .f32⟩
  | .hbm, ⟨51, _⟩ => ⟨S100000x128, .f32⟩
  | .hbm, ⟨52, _⟩ => ⟨S1700000x1, .i32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_4 : Ref sig .tc := ⟨.hbm, 39, rfl⟩
abbrev main_v30 : Ref sig .tc := ⟨.hbm, 40, rfl⟩
abbrev main_v31 : Ref sig .tc := ⟨.hbm, 41, rfl⟩
abbrev main_c_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call0_cst : Ref sig .tc := ⟨.hbm, 54, rfl⟩
abbrev main_call0_v0 : Ref sig .tc := ⟨.hbm, 55, rfl⟩
abbrev main_v42 : Ref sig .tc := ⟨.hbm, 56, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.ReluRegion.lean ====
import proofs.«149117_j1219770712715_1_alg».proof.Proof.Gen.KernelIdeal.Frame
import Idealize.ShloMosaic.Lib.Pipeline.Value
import Idealize.ShloMosaic.Lib.ValueIdx

/-!
# The rectifier region: what its output array holds

The second pallas_call walks a grid of 20 points. At point `t` it fetches rows `5000·t … 5000·t + 4999` (all 128
columns) of its operand, takes the larger of each entry and zero, and writes the block back to the same rows of its
result. The 20 row blocks are disjoint and together are all 100000 rows, so after the region the result array is the
operand array with every entry replaced by its maximum with zero — whatever the operand array held when the region
was entered. Everything here is stated for arbitrary entry contents `V` and for any float instance.
-/

set_option maxRecDepth 16384

noncomputable section

namespace Cert.KernelIdeal.Rectifier

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- The body's one store starts at the block's origin. -/
theorem origin_zero : (![0, 0] : Fin 2 → Nat) = fun _ => 0 := funext fun a => by fin_cases a <;> rfl

/-- The whole-array rectifier: every entry replaced by the larger of itself and the float zero. -/
def rectify (a : S100000x128.Idx → Elt F .f32) : S100000x128.Idx → Elt F .f32 :=
  fun i => FloatOps.maximumf (a i) (Scalar.ofBits .f32 0x00000000#32)

/-- The body's stored value, entry by entry: the loaded block's entry against zero (the shape cast is between
    equal shapes, the zero a splat). -/
theorem stored_eq (x0 : Vec F S5000x128 .f32) :
    k1_pay1 x0 = fun j => FloatOps.maximumf (x0 j) (Scalar.ofBits .f32 0x00000000#32) := by
  unfold k1_pay1
  simp only [shapeCast_self]
  rfl

/-- The index maps over the grid: operand and result move together, block row `t`, block column `0`. -/
theorem block_index : ∀ t : Fin cfg1.N, win1_0.index t (0 : Fin 2) = win1_1.index t (0 : Fin 2)
    ∧ win1_0.index t (1 : Fin 2) = win1_1.index t (1 : Fin 2)
    ∧ win1_1.index t (0 : Fin 2) ≤ 19 ∧ win1_1.index t (1 : Fin 2) = 0 :=
  (by decide +kernel : ∀ t : Fin grid1.N, _)

/-- Every one of the 20 row blocks is some point's. -/
theorem block_onto : ∀ q : Fin 20, ∃ t : Fin cfg1.N, win1_1.index t = ![q.val, 0] :=
  (by decide +kernel : ∀ q : Fin 20, ∃ t : Fin grid1.N, win1_1.index t = ![q.val, 0])

/-- What point `t` writes back is block `t` of the rectified operand array. -/
theorem flushed_eq (c : Dev nD) (t : Fin cfg1.N) :
    (dat1 V c).flushed 1 t = ((cfg1.win 1).blk t).view.read (Elt F) (rectify (V c main_v41)) := by
  show (cfg1.win 1).cut (grid1.coords t) ((dat1 V c).after 1 t) = _
  rw [after1_1]
  unfold out1_1
  rw [View.canon_unit_zero origin_zero]
  simp only [View.ld_unit_zero (S := S5000x128) origin_zero]
  rw [stored_eq]
  obtain ⟨e0, e1, -, -⟩ := block_index t
  funext j
  show FloatOps.maximumf (V c main_v41 (((cfg1.win 0).blk t).view.emb j)) _
      = FloatOps.maximumf (V c main_v41 (((cfg1.win 1).blk t).view.emb j)) _
  have h0 : ((cfg1.win 0).blk t).view.emb j = ((cfg1.win 1).blk t).view.emb j := by
    funext a; apply Fin.ext
    match a with
    | ⟨0, _⟩ => show win1_0.index t (0 : Fin 2) * 5000 + 1 * (j 0).val = win1_1.index t (0 : Fin 2) * 5000 + 1 * (j 0).val; omega
    | ⟨1, _⟩ => show win1_0.index t (1 : Fin 2) * 128 + 1 * (j 1).val = win1_1.index t (1 : Fin 2) * 128 + 1 * (j 1).val; omega
  rw [h0]

/-- An index of the result array lies in point `t`'s block iff each coordinate lies in the block's range. -/
theorem mem_blk (t : Fin cfg1.N) (i : S100000x128.Idx) :
    i ∈ ((cfg1.win 1).blk t).view.set ↔ ∀ a : Fin 2, win1_1.index t a * S5000x128.size a ≤ (i a).val
      ∧ (i a).val < win1_1.index t a * S5000x128.size a + S5000x128.size a := by
  show i ∈ ((View.whole main_v42).slice (win1_1.rect t)).set ↔ _
  rw [View.set_slice_whole, Rect.mem_set_unit]
  exact Iff.rfl

/-- The row blocks cover the array: row `r` is in block `r / 5000`. -/
theorem covered (i : S100000x128.Idx) :
    ∃ t : Fin cfg1.N, (cfg1.win 1).flush t = true ∧ i ∈ ((cfg1.win 1).blk t).view.set := by
  have hi0 : (i 0).val < 100000 := (i 0).isLt
  have hi1 : (i 1).val < 128 := (i 1).isLt
  obtain ⟨t, ht⟩ := block_onto ⟨(i 0).val / 5000, by omega⟩
  have q0 : win1_1.index t (0 : Fin 2) = (i 0).val / 5000 := congrFun ht 0
  have q1 : win1_1.index t (1 : Fin 2) = 0 := congrFun ht 1
  refine ⟨t, flush1_1 t, ?_⟩
  rw [mem_blk]
  intro a
  match a with
  | ⟨0, _⟩ => show win1_1.index t (0 : Fin 2) * 5000 ≤ (i 0).val ∧ (i 0).val < win1_1.index t (0 : Fin 2) * 5000 + 5000; omega
  | ⟨1, _⟩ => show win1_1.index t (1 : Fin 2) * 128 ≤ (i 1).val ∧ (i 1).val < win1_1.index t (1 : Fin 2) * 128 + 128; omega

/-- After the region the result array is the rectified operand array. -/
theorem result_array (c : Dev nD) : (dat1 V c).arrAt 1 cfg1.N = rectify (V c main_v41) :=
  (dat1 V c).arrAt_eq_of_cover 1 (rectify (V c main_v41)) (fun t _ => flushed_eq V c t) covered

end Cert.KernelIdeal.Rectifier

end
-- ==== Proof.MatmulRegion.lean ====
import proofs.«149117_j1219770712715_1_alg».proof.Proof.Gen.KernelIdeal.Frame
import Idealize.ShloMosaic.Lib.Pipeline.Value
import Idealize.ShloMosaic.Lib.ValueIdx
import Idealize.ShloMosaic.PureOps.Ideal.Laws

/-!
# The matrix-product region: what its output array holds, over the extended reals

The first pallas_call walks a grid of 20 points. At point `t` it fetches rows `5000·t … 5000·t + 4999` of the
left operand (a 100000 × 128 array) and the whole right operand (128 × 128), narrows both to bf16 — the identity over
the extended reals —, multiplies them into a zero accumulator and writes the 5000 × 128 product to the same rows of
its result. Over the extended reals entry `(r, q)` of a product into a zero accumulator is the plain sum
`∑ k, left (r, k) · right (k, q)`, and row `r` of the result only reads row `r` of the left operand; so the 20 row
blocks, which are disjoint and cover all 100000 rows, assemble to the product of the WHOLE left operand with the
right operand, whatever the two arrays held when the region was entered.
-/

set_option maxRecDepth 16384

noncomputable section

namespace Cert.KernelIdeal.Product

open Idealize.ShloMosaic Idealize.ShloMosaic.TcCoe
open Idealize.SL Idealize.SL.Sem
open Idealize.ShloMosaic.Pipeline (Dat Cfg Window)
open Cert.KernelIdeal Cert.KernelIdeal.Gen

/-! ## The whole-array product -/

/-- Entry `(i 0, k)` of a 100000 × 128 array: where row `i 0` of the left operand meets contraction index `k`. -/
abbrev leftAt (i : S100000x128.Idx) (k : Fin 128) : S100000x128.Idx := fun a => match a with
  | ⟨0, _⟩ => ⟨(i 0).val, (i 0).isLt⟩
  | ⟨1, _⟩ => ⟨k.val, k.isLt⟩
/-- Entry `(k, i 1)` of a 128 × 128 array: where contraction index `k` meets column `i 1` of the right operand. -/
abbrev rightAt (i : S100000x128.Idx) (k : Fin 128) : S128x128.Idx := fun a => match a with
  | ⟨0, _⟩ => ⟨k.val, k.isLt⟩
  | ⟨1, _⟩ => ⟨(i 1).val, (i 1).isLt⟩

/-- The product of a 100000 × 128 array with a 128 × 128 array over the extended reals, entry by entry. -/
def product (x : S100000x128.Idx → EReal) (w : S128x128.Idx → EReal) : S100000x128.Idx → EReal :=
  fun i => ∑ k : Fin 128, x (leftAt i k) * w (rightAt i k)

/-! ## One block's product, entry by entry -/

theorem lhs_axis0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_axis0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_axis1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Inside a block: entry `(j 0, k)` of the fetched rows, -/
abbrev blockLeftAt (j : S5000x128.Idx) (k : Fin 128) : S5000x128.Idx := fun a => match a with
  | ⟨0, _⟩ => ⟨(j 0).val, (j 0).isLt⟩
  | ⟨1, _⟩ => ⟨k.val, k.isLt⟩
/-- and entry `(k, j 1)` of the right operand. -/
abbrev blockRightAt (j : S5000x128.Idx) (k : Fin 128) : S128x128.Idx := fun a => match a with
  | ⟨0, _⟩ => ⟨k.val, k.isLt⟩
  | ⟨1, _⟩ => ⟨(j 1).val, (j 1).isLt⟩

/-- The body's stored value at an entry: the two narrowings are the identity and the accumulator is zero, so it is
    the sum over the contracted axis of the products of the loaded entries. -/
theorem stored_apply (x0 : Vec Ideal S5000x128 .f32) (x1 : Vec Ideal S128x128 .f32) (j : S5000x128.Idx) :
    k0_pay1 (F := Ideal) x0 x1 j = ∑ k : Fin 128, x0 (blockLeftAt j k) * x1 (blockRightAt j k) := by
  unfold k0_pay1
  simp only [shapeCast_self, matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = blockLeftAt j k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx j ((ValueIdx.contrEquiv1 dot_S5000x128_S128x128_S5000x128_1_0_0_1_n_n 128 rfl rfl).symm k) = blockRightAt j k := funext fun a => Fin.ext (by
    match a with
    | ⟨0, _⟩ => exact (rhs_axis0 _ _).trans hk
    | ⟨1, _⟩ => exact rhs_axis1 _ _)
  rw [el, er]
  rfl

/-! ## From the blocks to the array -/

variable (V : (c : Dev nD) → (b : Ref sig .tc) → Buf (Elt Ideal) ((c : Thread nD τ).loc b))

/-- The left operand's array and the right operand's array as the region finds them, at their literal types. -/
abbrev leftArr (c : Dev nD) : S100000x128.Idx → EReal := V c main_arg0
abbrev rightArr (c : Dev nD) : S128x128.Idx → EReal := V c main_v27

/-- The body's one store starts at the block's origin. -/
theorem origin_zero : (![0, 0] : Fin 2 → Nat) = fun _ => 0 := funext fun a => by fin_cases a <;> rfl

/-- The index maps over the grid: left operand and result move together down the rows (block row `t`, block
    column `0`); the right operand stays at block `(0, 0)`. -/
theorem block_index : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) ≤ 19 ∧ win0_2.index t (1 : Fin 2) = 0 :=
  (by decide +kernel : ∀ t : Fin grid0.N, _)

/-- Every one of the 20 row blocks is some point's. -/
theorem block_onto : ∀ q : Fin 20, ∃ t : Fin cfg0.N, win0_2.index t = ![q.val, 0] :=
  (by decide +kernel : ∀ q : Fin 20, ∃ t : Fin grid0.N, win0_2.index t = ![q.val, 0])

/-- What point `t` writes back is block `t` of the product of the two arrays as the region finds them. -/
theorem flushed_eq (c : Dev nD) (t : Fin cfg0.N) :
    (dat0 V c).flushed 2 t = ((cfg0.win 2).blk t).view.read (Elt Ideal) (product (leftArr V c) (rightArr V c)) := by
  show (cfg0.win 2).cut (grid0.coords t) ((dat0 V c).after 2 t) = _
  rw [after0_2]
  unfold out0_2
  rw [View.canon_unit_zero origin_zero]
  simp only [View.ld_unit_zero (S := S5000x128) origin_zero, View.ld_unit_zero (S := S128x128) origin_zero]
  obtain ⟨e0, e1, e2, e3, -, e5⟩ := block_index t
  funext j
  refine (stored_apply (iblk0 V c 0 t) (iblk0 V c 1 t) j).trans ?_
  show ∑ k : Fin 128, leftArr V c (((cfg0.win 0).blk t).view.emb (blockLeftAt j k)) * rightArr V c (((cfg0.win 1).blk t).view.emb (blockRightAt j k))
      = ∑ k : Fin 128, leftArr V c (leftAt (((cfg0.win 2).blk t).view.emb j) k) * rightArr V c (rightAt (((cfg0.win 2).blk t).view.emb j) k)
  refine Finset.sum_congr rfl fun k _ => ?_
  have h0 : ((cfg0.win 0).blk t).view.emb (blockLeftAt j k) = leftAt (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (blockRightAt j k) = rightAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the result array lies in point `t`'s block iff each coordinate lies in the block's range. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v28).slice (win0_2.rect t)).set ↔ _
  rw [View.set_slice_whole, Rect.mem_set_unit]
  exact Iff.rfl

/-- The row blocks cover the array: row `r` is in block `r / 5000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the result array is the product of the two operand arrays as the region found them. -/
theorem result_array (c : Dev nD) : (dat0 V c).arrAt 2 cfg0.N = product (leftArr V c) (rightArr V c) :=
  (dat0 V c).arrAt_eq_of_cover 2 (product (leftArr V c) (rightArr V c)) (fun t _ => flushed_eq V c t) covered

end Cert.KernelIdeal.Product

end
-- ==== Proof.Aggregate.lean ====
import proofs.«149117_j1219770712715_1_alg».proof.Proof.Gen.ReferenceIdeal.Read

/-!
# The neighbourhood aggregation as a function of the projected features

Both programs do the same thing with the projected features `h` (a 100000 × 128 array) and the edge list: they
append a self loop per node to the edge list, count each node's degree by a scatter-add of ones along the row indices,
take its inverse square root, weigh edge `(row, col)` by the product of the two nodes' inverse-root degrees, gather row
`col` of `h` for every edge, scale it by the edge's weight and scatter-add it into row `row` of a zero array. Only
`h` differs between the programs' texts. Here that common stretch is named once as a function of `h` and of the edge
list, over the stage functions that read the reference one operation at a time; it is never opened: both sides are
shown to apply it to equal arguments.
-/

noncomputable section

namespace Cert.ReferenceIdeal.Aggregation

open Cert.ReferenceIdeal Cert.ReferenceIdeal.Gen Cert.ReferenceIdeal.Read Idealize.ShloMosaic Idealize.ShloMosaic.TcCoe

variable {F : FTy → Type} [FloatOps F]

/-- Row `row e` of the result collects, over every edge `e` (self loops included), the edge's weight times row
    `col e` of `h`. -/
def aggregate (h : (⟨S100000x128, .f32⟩ : BufTy).Contents (Elt F)) (edges : (⟨S2x1600000, .i32⟩ : BufTy).Contents (Elt F)) :
    (⟨S100000x128, .f32⟩ : BufTy).Contents (Elt F) :=
  Host.scatterAdd scatter_S100000x128_S1700000x1_S1700000x128_1_0_0_1 (val_main_v39 (F := F)) (val_main_v40 (F := F) edges)
    (mulf (val_main_v37 (F := F) edges)
      (Host.gather gather_S100000x128_S1700000x1_S1700000x128_1_0_n_n_0_1_1128 h (val_main_v35 (F := F) edges)))

/-- The reference's aggregated array is that function of its own projected features. -/
theorem stage_eq (x0 : (⟨S100000x128, .f32⟩ : BufTy).Contents (Elt F)) (x1 : (⟨S2x1600000, .i32⟩ : BufTy).Contents (Elt F))
    (x2 : (⟨S128x128, .f32⟩ : BufTy).Contents (Elt F)) :
    val_main_v41 (F := F) x0 x1 x2 = aggregate (val_main_v28 (F := F) x0 x2) x1 := rfl

end Cert.ReferenceIdeal.Aggregation

end
-- ==== Proof.Boundary.lean ====
import proofs.«149117_j1219770712715_1_alg».proof.Proof.KernelRun
import proofs.«149117_j1219770712715_1_alg».proof.Proof.ReluRegion
import proofs.«149117_j1219770712715_1_alg».proof.Proof.MatmulRegion
import proofs.«149117_j1219770712715_1_alg».proof.Proof.Aggregate
import Idealize.ShloMosaic.Lib.StableHlo.Run

/-!
# What the idealized kernel's result array holds, as a function of the arguments

The run passes four boundaries. Walking them in order:

* after the first stretch of host operations the buffers hold the row indices and the column indices with the self
  loops appended, the edge weights, and the transposed weight matrix — each the same function of the arguments as the
  corresponding stage of the reference — and the feature array is untouched;
* the matrix-product region leaves the product of the feature array with the transposed weight matrix in its result
  and touches nothing else;
* the second stretch of host operations aggregates that product along the edges;
* the rectifier region leaves the aggregated array, rectified, in the program's result.
-/

set_option maxRecDepth 16384

noncomputable section

namespace Cert.KernelIdeal.Boundary

open Idealize.ShloMosaic Idealize.ShloMosaic.TcCoe Idealize.ShloMosaic.StableHlo
open Idealize.SL Idealize.SL.Sem
open Cert.KernelIdeal Cert.KernelIdeal.Gen

variable (m : (ℓ : Loc nD τ sig) → Buf (Elt Ideal) ℓ) (ρ : Dev nD → PrngReg)

/-! ## The matrix-product region's entry -/

/-- The row indices, self loops appended. -/
theorem entry_rows (c : Dev nD) :
    W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl

/-- The column indices, self loops appended. -/
theorem entry_cols (c : Dev nD) :
    W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results_simp
  rfl

/-- The edge weights: the product of the two end nodes' inverse-root degrees. -/
theorem entry_weights (c : Dev nD) :
    W1 m ρ c (Proc.devRef .tc main_v26) = Cert.ReferenceIdeal.Read.val_main_v26 (F := Ideal) (m ((c : Thread nD τ).loc main_arg1)) := by
  show StableHlo.after hostOps0 (W0 m ρ c) (Proc.devRef .tc main_v26) = _
  after_results_simp
  rfl

/-- The transposed weight matrix. -/
theorem entry_right (c : Dev nD) :
    W1 m ρ c (Proc.devRef .tc main_v27) = Cert.ReferenceIdeal.Read.val_main_v27 (F := Ideal) (m ((c : Thread nD τ).loc main_arg2)) := by
  show StableHlo.after hostOps0 (W0 m ρ c) (Proc.devRef .tc main_v27) = _
  after_results_simp
  rfl

/-- The feature array, which no host operation writes. -/
theorem entry_left (c : Dev nD) :
    W1 m ρ c (Proc.devRef .tc main_arg0) = m ((c : Thread nD τ).loc main_arg0) := by
  show StableHlo.after hostOps0 (W0 m ρ c) (Proc.devRef .tc main_arg0) = _
  after_results_simp

/-! ## The matrix-product region's exit -/

/-- Its result array holds the product of the feature array with the transposed weight matrix. -/
theorem exit_product (c : Dev nD) :
    W2 m ρ c (Proc.devRef .tc main_v28)
      = Product.product (m ((c : Thread nD τ).loc main_arg0)) (Cert.ReferenceIdeal.Read.val_main_v27 (F := Ideal) (m ((c : Thread nD τ).loc main_arg2))) := by
  refine (W2_arr m ρ c 2).trans ((Product.result_array (V1 m ρ) c).trans ?_)
  show Product.product (W1 m ρ c (Proc.devRef .tc main_arg0)) (W1 m ρ c (Proc.devRef .tc main_v27)) = _
  rw [entry_left, entry_right]

/-- Every buffer that is not one of the region's three arrays is as it was at the entry. -/
theorem exit_rows (c : Dev nD) :
    W2 m ρ c (Proc.devRef .tc main_v3) = Cert.ReferenceIdeal.Read.val_main_v3 (F := Ideal) (m ((c : Thread nD τ).loc main_arg1)) :=
  (W2_of_ne m ρ c main_v3 (by decide)).trans (entry_rows m ρ c)
theorem exit_cols (c : Dev nD) :
    W2 m ρ c (Proc.devRef .tc main_v6) = Cert.ReferenceIdeal.Read.val_main_v6 (F := Ideal) (m ((c : Thread nD τ).loc main_arg1)) :=
  (W2_of_ne m ρ c main_v6 (by decide)).trans (entry_cols m ρ c)
theorem exit_weights (c : Dev nD) :
    W2 m ρ c (Proc.devRef .tc main_v26) = Cert.ReferenceIdeal.Read.val_main_v26 (F := Ideal) (m ((c : Thread nD τ).loc main_arg1)) :=
  (W2_of_ne m ρ c main_v26 (by decide)).trans (entry_weights m ρ c)

/-! ## The rectifier region's entry and exit -/

/-- The second stretch of host operations aggregates the product along the edges. -/
theorem entry_aggregated (c : Dev nD) :
    W3 m ρ c (Proc.devRef .tc main_v41)
      = Cert.ReferenceIdeal.Aggregation.aggregate (F := Ideal)
          (Product.product (m ((c : Thread nD τ).loc main_arg0)) (Cert.ReferenceIdeal.Read.val_main_v27 (F := Ideal) (m ((c : Thread nD τ).loc main_arg2))))
          (m ((c : Thread nD τ).loc main_arg1)) := by
  show StableHlo.after hostOps1 (W2 m ρ c) (Proc.devRef .tc main_v41) = _
  after_results_simp
  rw [exit_rows, exit_cols, exit_weights, exit_product]
  rfl

/-- The program's result: the aggregated array, rectified. -/
theorem result (c : Dev nD) :
    W4 m ρ c (Proc.devRef .tc main_v42)
      = Rectifier.rectify (F := Ideal) (Cert.ReferenceIdeal.Aggregation.aggregate (F := Ideal)
          (Product.product (m ((c : Thread nD τ).loc main_arg0)) (Cert.ReferenceIdeal.Read.val_main_v27 (F := Ideal) (m ((c : Thread nD τ).loc main_arg2))))
          (m ((c : Thread nD τ).loc main_arg1))) :=
  (W4_arr m ρ c 1).trans ((Rectifier.result_array (V3 m ρ) c).trans (congrArg (Rectifier.rectify (F := Ideal)) (entry_aggregated m ρ c)))

/-- The run, read: the result array at that function of the arguments, the arguments as launched. -/
theorem run : θ_run defs (onTc (τ := τ) (main (F := Ideal))) ⟨m, fun _ => 0, ρ⟩ (fun r => ∀ c : Dev nD,
      r.2.mem ((c.tc : Thread nD τ).loc main_v42)
        = Rectifier.rectify (F := Ideal) (Cert.ReferenceIdeal.Aggregation.aggregate (F := Ideal)
            (Product.product (m ((c : Thread nD τ).loc main_arg0)) (Cert.ReferenceIdeal.Read.val_main_v27 (F := Ideal) (m ((c : Thread nD τ).loc main_arg2))))
            (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result m ρ c), (h c).2⟩) (NamedRun.run_named m ρ)

end Cert.KernelIdeal.Boundary

end
-- ==== Proof.RefSide.lean ====
import proofs.«149117_j1219770712715_1_alg».proof.Proof.Gen.ReferenceIdeal.Read
import proofs.«149117_j1219770712715_1_alg».proof.Proof.Aggregate
import proofs.«149117_j1219770712715_1_alg».proof.Proof.MatmulRegion
import proofs.«149117_j1219770712715_1_alg».proof.Proof.ReluRegion

/-!
# The reference's result is the same function of the arguments

The reference computes the projected features by one host `dot_general` of the whole feature array with the
transposed weight matrix — over the extended reals the same sum over the contracted axis as the kernel's product —,
aggregates them along the edges by the very operations the kernel's program uses, and applies `relu`, which is the
entrywise maximum with a zero array: the rectifier.
-/

noncomputable section

namespace Cert.ReferenceIdeal.RefValue

open Cert.ReferenceIdeal Cert.ReferenceIdeal.Gen Cert.ReferenceIdeal.Read Idealize.ShloMosaic Idealize.ShloMosaic.TcCoe

/-- The host's `dot_general` is the product, entry by entry: the sum over `k` of the feature row's entry `k` times
    entry `(k, column)` of the transposed weight matrix. -/
theorem projected_eq (x0 : (⟨S100000x128, .f32⟩ : BufTy).Contents (Elt Ideal)) (x2 : (⟨S128x128, .f32⟩ : BufTy).Contents (Elt Ideal)) :
    val_main_v28 (F := Ideal) x0 x2 = Cert.KernelIdeal.Product.product x0 (val_main_v27 (F := Ideal) x2) := by
  funext i
  rw [val_main_v28_apply]
  rfl

/-- The reference's result: the aggregation of that product, rectified. -/
theorem result_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) :
    val_main_v42 (F := Ideal) x0 x1 x2
      = Cert.KernelIdeal.Rectifier.rectify (F := Ideal)
          (Aggregation.aggregate (F := Ideal) (Cert.KernelIdeal.Product.product x0 (val_main_v27 (F := Ideal) x2)) x1) :=
  calc val_main_v42 (F := Ideal) x0 x1 x2
      = Cert.KernelIdeal.Rectifier.rectify (F := Ideal) (val_main_v41 (F := Ideal) x0 x1 x2) := rfl
    _ = Cert.KernelIdeal.Rectifier.rectify (F := Ideal) (Aggregation.aggregate (F := Ideal) (val_main_v28 (F := Ideal) x0 x2) x1) := by
        rw [Aggregation.stage_eq]
    _ = _ := by rw [projected_eq]

end Cert.ReferenceIdeal.RefValue

end
-- ==== Proof.lean ====
/-
  The graph-convolution layer `relu (Â · (x · Wᵀ))`, with `Â` the degree-normalised adjacency of the edge list with a
  self loop added at every node, in two programs.

  The kernel's program computes the dense projection `h = x · Wᵀ` in a Pallas matrix-product kernel over 20 blocks of
  5000 rows (operands narrowed to bf16, accumulated in f32 from zero) and the final `relu` in a second Pallas kernel
  over the same 20 row blocks; everything between — the self loops, the degrees, their inverse square roots, the edge
  weights, the gather of `h` along the column indices and the scatter-add along the row indices — is plain host code.
  The reference is the same host code with `h` one host matrix product and `relu` a host maximum with zero.

  Over the extended reals the two results are one function of the arguments:
  * a narrowing to bf16 is the identity, and a product into a zero accumulator is the plain sum over the contracted axis,
    so each 5000-row block of the kernel's `h` is the corresponding rows of the host product, and the 20 blocks tile the
    array (Proof/MatmulRegion.lean, Proof/RefSide.lean);
  * the host code between the two kernels is the same operations in both programs and is carried as one function of
    `h` and the edge list, never opened (Proof/Aggregate.lean, Proof/Boundary.lean);
  * the second kernel's blocks tile the array too and each is the entrywise maximum with zero (Proof/ReluRegion.lean).
  No step moves a factor across a sum or cancels anything, so the inputs' finiteness is never used.

  The three frames are the generated ones (the reference's is its generated run with the result dropped); the kernel's
  run with its result array named is the several-regions launch stated once more (Proof/KernelRun.lean). The ideal pass
  rewrote nothing, so the idealization claim is trivial.
-/
import proofs.«149117_j1219770712715_1_alg».proof.Defs
import proofs.«149117_j1219770712715_1_alg».proof.Proof.Gen.Kernel
import proofs.«149117_j1219770712715_1_alg».proof.Proof.Gen.Kernel.Skeleton
import proofs.«149117_j1219770712715_1_alg».proof.Proof.Gen.Kernel.Launch
import proofs.«149117_j1219770712715_1_alg».proof.Proof.Gen.Kernel.Points
import proofs.«149117_j1219770712715_1_alg».proof.Proof.Gen.Kernel.Frame
import proofs.«149117_j1219770712715_1_alg».proof.Proof.Gen.KernelIdeal
import proofs.«149117_j1219770712715_1_alg».proof.Proof.Gen.KernelIdeal.Skeleton
import proofs.«149117_j1219770712715_1_alg».proof.Proof.Gen.KernelIdeal.Launch
import proofs.«149117_j1219770712715_1_alg».proof.Proof.Gen.KernelIdeal.Points
import proofs.«149117_j1219770712715_1_alg».proof.Proof.Gen.KernelIdeal.Frame
import proofs.«149117_j1219770712715_1_alg».proof.Proof.Gen.ReferenceIdeal
import proofs.«149117_j1219770712715_1_alg».proof.Proof.Gen.ReferenceIdeal.Run
import proofs.«149117_j1219770712715_1_alg».proof.Proof.Gen.ReferenceIdeal.Read
import proofs.«149117_j1219770712715_1_alg».proof.Proof.Gen.Pre_finite_inputs
import proofs.«149117_j1219770712715_1_alg».proof.Proof.Boundary
import proofs.«149117_j1219770712715_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs end with `relu` of the aggregation of `x · Wᵀ` along the edges, as extended reals: the
    kernel's run read at its result array, the reference's generated run read stage by stage, the arguments' agreement
    rewritten. -/
theorem algebraic : Cert.algebraic_KernelIdeal_ReferenceIdeal := by
  intro m ρ m' ρ' _ hagree
  refine ⟨_, Cert.KernelIdeal.Boundary.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, (hagree c).1, (hagree c).2.1, (hagree c).2.2]
  exact Cert.ReferenceIdeal.RefValue.result_eq _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
